-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S512x128 : Shape := ⟨2, ![512, 128]⟩
abbrev S1 : Shape := ⟨1, ![1]⟩
abbrev S10x512 : Shape := ⟨2, ![10, 512]⟩
abbrev S10 : Shape := ⟨1, ![10]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S1 : S_.BroadcastsInDim S1 (![] : Fin 0 → Fin S1.rank)
  reducesTo_S1_S_d0 : S1.ReducesTo [0] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg2 : FVec F S1 .f32) (main_arg4 : FVec F S10 .f32) (main_v13 : IVec S_ 1) (main_v16 : IVec S10x512 1) : IVec S_ 1 :=
  let main_c_5 : IVec S_ 1 := constantI S_ 1 1#1
  let main_v17 : IVec S_ 1 := (fun x v => Host.reduce IntOp.andi x v reducesTo_S10x512_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_cst_8 : FVec F S_ .f32 := constant S_ .f32 0x00000000#32
  let main_v24 : FVec F S1 .f32 := broadcastInDim S1 ![] bcast_S_S1 main_cst_8
  let main_v25 : IVec S1 1 := cmpf .une main_arg2 main_v24
  let main_c_9 : IVec S_ 1 := constantI S_ 1 1#1
  let main_v26 : IVec S_ 1 := (fun x v => Host.reduce IntOp.andi x v reducesTo_S1_S_d0 h_S_) main_v25 main_c_9
  let main_v27 : IVec S_ 1 := andi main_v23 main_v26
  main_v27

def fn {F : FTy → Type} [FloatOps F] (main_arg0 : FVec F S2048x128 .f32) (main_arg1 : FVec F S512x128 .f32) (main_arg2 : FVec F S1 .f32) (main_arg3 : FVec F S10x512 .f32) (main_arg4 : FVec F S10 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S10x512 .f32 := Host.absf main_arg3
  let main_cst_4 : FVec F S_ .f32 := constant S_ .f32 0x7F800000#32
  let main_v15 : FVec F S10x512 .f32 := broadcastInDim S10x512 ![] bcast_S_S10x512 main_cst_4
  let main_v16 : IVec S10x512 1 := cmpf .olt main_v14 main_v15
  fn_part1 (F := F) main_arg2 main_arg4 main_v13 main_v16
-- ==== Kernel.lean ====
abbrev S2048x128 : Shape := ⟨2, ![2048, 128]⟩
abbrev S512x128 : Shape := ⟨2, ![512, 128]⟩
abbrev S1 : Shape := ⟨1, ![1]⟩
abbrev S10x512 : Shape := ⟨2, ![10, 512]⟩
abbrev S10 : Shape := ⟨1, ![10]⟩
abbrev S128x512 : Shape := ⟨2, ![128, 512]⟩
abbrev S512x10 : Shape := ⟨2, ![512, 10]⟩
abbrev S1x10 : Shape := ⟨2, ![1, 10]⟩
abbrev S1x1 : Shape := ⟨2, ![1, 1]⟩
abbrev S2048x10 : Shape := ⟨2, ![2048, 10]⟩
abbrev S512 : Shape := ⟨1, ![512]⟩
abbrev S512x1 : Shape := ⟨2, ![512, 1]⟩
abbrev S1x512 : Shape := ⟨2, ![1, 512]⟩
abbrev S512x512 : Shape := ⟨2, ![512, 512]⟩

abbrev nBuf : Space → Nat
  | .hbm => 10
  | .vmem => 9
  | .smem => 0
  | _ => 0

abbrev bufTy : (tb : Table) → Fin (tcTables nBuf tb) → BufTy
  | .hbm, ⟨0, _⟩ => ⟨S2048x128, .f32⟩
  | .hbm, ⟨1, _⟩ => ⟨S512x128, .f32⟩
  | .hbm, ⟨2, _⟩ => ⟨S1, .f32⟩
  | .hbm, ⟨3, _⟩ => ⟨S10x512, .f32⟩
  | .hbm, ⟨4, _⟩ => ⟨S10, .f32⟩
  | .hbm, ⟨5, _⟩ => ⟨S128x512, .f32⟩
  | .hbm, ⟨6, _⟩ => ⟨S512x10, .f32⟩
  | .hbm, ⟨7, _⟩ => ⟨S1x10, .f32⟩
  | .hbm, ⟨8, _⟩ => ⟨S1x1, .f32⟩
  | .hbm, ⟨9, _⟩ => ⟨S2048x10, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S128x512, .f32⟩
  | .local _ .vmem, ⟨4, _⟩ => ⟨S512x10, .f32⟩
  | .local _ .vmem, ⟨5, _⟩ => ⟨S1x10, .f32⟩
  | .local _ .vmem, ⟨6, _⟩ => ⟨S1x1, .f32⟩
  | .local _ .vmem, ⟨7, _⟩ => ⟨S512x10, .f32⟩
  | .local _ .vmem, ⟨8, _⟩ => ⟨S512x10, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S512x128_S128x512_1_0 : S512x128.Transposes [1, 0] S128x512
  transposes_S10x512_S512x10_1_0 : S10x512.Transposes [1, 0] S512x10
  shapeCasts_S10_S1x10 : S10.ShapeCasts S1x10
  shapeCasts_S1_S1x1 : S1.ShapeCasts S1x1
  inb_S512x128_S512x128_0_0 : ∀ a, (![0, 0] : Fin 2 → Nat) a + S512x128.size a ≤ S512x128.size a
  h_S512x128 : 0 < S512x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S512x128_S512 : S512x128.Reduces [1] S512
  shapeCasts_S512_S512x1 : S512.ShapeCasts S512x1
  shapeCasts_S512_S1x512 : S512.ShapeCasts S1x512
  bitsLt_bf16_f32 : FTy.bits .bf16 < FTy.bits .f32
  broadcasts_S512x1_S512x512 : S512x1.Broadcasts S512x512
  broadcasts_S1x512_S512x512 : S1x512.Broadcasts S512x512
  broadcasts_S1x1_S512x512 : S1x1.Broadcasts S512x512
  broadcasts_S1x10_S512x10 : S1x10.Broadcasts S512x10
  dot_S512x128_S128x512_S512x512_1_0_0_1_n_n_wf : DotDims.WF S512x128 S128x512 S512x512 [1] [0] [0] [1] [] []
  dot_S512x512_S512x10_S512x10_1_0_0_1_n_n_wf : DotDims.WF S512x512 S512x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x10.size a ≤ S512x10.size a
  hwx0_3 : ∀ i : grid0.Coords, EltTy.bits .f32 = 32 ∨ (Rect.block (s := S512x10) S512x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x10.size a ≤ S2048x10.size a
  hwx0_6 : ∀ i : grid0.Coords, EltTy.bits .f32 = 32 ∨ (Rect.block (s := S2048x10) S512x10.size (cc0_transform_6 i) (hinb0_6 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x10_S512x10_1_0_0_1_n_n : DotDims S512x512 S512x10 S512x10 where
  lhsContracting := [1]
  rhsContracting := [0]
  lhsNonContracting := [0]
  rhsNonContracting := [1]
  lhsBatch := []
  rhsBatch := []
  wf := dot_S512x512_S512x10_S512x10_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x128 : Shape := ⟨2, ![2048, 128]⟩
abbrev S512x128 : Shape := ⟨2, ![512, 128]⟩
abbrev S1 : Shape := ⟨1, ![1]⟩
abbrev S10x512 : Shape := ⟨2, ![10, 512]⟩
abbrev S10 : Shape := ⟨1, ![10]⟩
abbrev S2048x1x128 : Shape := ⟨3, ![2048, 1, 128]⟩
abbrev S1x512x128 : Shape := ⟨3, ![1, 512, 128]⟩
abbrev S2048x512x128 : Shape := ⟨3, ![2048, 512, 128]⟩
abbrev S_ : Shape := ⟨0, ![]⟩
abbrev S2048x512 : Shape := ⟨2, ![2048, 512]⟩
abbrev S512x10 : Shape := ⟨2, ![512, 10]⟩
abbrev S2048x10 : Shape := ⟨2, ![2048, 10]⟩
abbrev S1x10 : Shape := ⟨2, ![1, 10]⟩

abbrev nBuf : Space → Nat
  | .hbm => 26
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S512x128, .f32⟩
  | .hbm, ⟨2, _⟩ => ⟨S1, .f32⟩
  | .hbm, ⟨3, _⟩ => ⟨S10x512, .f32⟩
  | .hbm, ⟨4, _⟩ => ⟨S10, .f32⟩
  | .hbm, ⟨5, _⟩ => ⟨S2048x1x128, .f32⟩
  | .hbm, ⟨6, _⟩ => ⟨S1x512x128, .f32⟩
  | .hbm, ⟨7, _⟩ => ⟨S2048x512x128, .f32⟩
  | .hbm, ⟨8, _⟩ => ⟨S2048x512x128, .f32⟩
  | .hbm, ⟨9, _⟩ => ⟨S2048x512x128, .f32⟩
  | .hbm, ⟨10, _⟩ => ⟨S2048x512x128, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S512x10, .f32⟩
  | .hbm, ⟨22, _⟩ => ⟨S2048x10, .f32⟩
  | .hbm, ⟨23, _⟩ => ⟨S1x10, .f32⟩
  | .hbm, ⟨24, _⟩ => ⟨S2048x10, .f32⟩
  | .hbm, ⟨25, _⟩ => ⟨S2048x10, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S2048x128_S2048x1x128_0_2 : S2048x128.BroadcastsInDim S2048x1x128 (![0, 2] : Fin 2 → Fin S2048x1x128.rank)
  bcast_S512x128_S1x512x128_1_2 : S512x128.BroadcastsInDim S1x512x128 (![1, 2] : Fin 2 → Fin S1x512x128.rank)
  bcast_S2048x1x128_S2048x512x128_0_1_2 : S2048x1x128.BroadcastsInDim S2048x512x128 (![0, 1, 2] : Fin 3 → Fin S2048x512x128.rank)
  bcast_S1x512x128_S2048x512x128_0_1_2 : S1x512x128.BroadcastsInDim S2048x512x128 (![0, 1, 2] : Fin 3 → Fin S2048x512x128.rank)
  reducesTo_S2048x512x128_S2048x512_d2 : S2048x512x128.ReducesTo [2] S2048x512
  h_S_ : 0 < S_.numel
  shapeCasts_S1_S_ : S1.ShapeCasts S_
  bcast_S_S2048x512 : S_.BroadcastsInDim S2048x512 (![] : Fin 0 → Fin S2048x512.rank)
  transposes_S10x512_S512x10_1_0 : S10x512.Transposes [1, 0] S512x10
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  dot_S2048x512_S512x10_S2048x10_1_0_0_1_n_n_wf : DotDims.WF S2048x512 S512x10 S2048x10 [1] [0] [0] [1] [] []

variable [Facts₀]

def dot_S2048x512_S512x10_S2048x10_1_0_0_1_n_n : DotDims S2048x512 S512x10 S2048x10 where
  lhsContracting := [1]
  rhsContracting := [0]
  lhsNonContracting := [0]
  rhsNonContracting := [1]
  lhsBatch := []
  rhsBatch := []
  wf := dot_S2048x512_S512x10_S2048x10_1_0_0_1_n_n_wf

class Facts : Prop extends Facts₀ where

variable [Facts]
-- ==== Proof.RbfLaw.lean ====
/-
  The mathematics that joins the two programs, with no program in sight.

  For a row `x_p` of the inputs and a row `c_h` of the centers the reference's activation is
  `exp (-(Σ_f (x_pf - c_hf)²) / (2·σ²))`, the kernel's `exp ((0 - ((Σ_f x_pf² + Σ_f c_hf²) - 2·Σ_f x_pf·c_hf)) · (1 / (2·σ·σ)))`.
  Over the REALS the two squared distances are one number (expand the square), and for `σ ≠ 0` dividing by
  `2σ²` is multiplying by its reciprocal. Both steps need finite entries (distributivity fails at the
  infinities) and the second needs `σ ≠ 0` (at `σ = 0` a quotient `0 / 0` and a product `0 · (1 / 0)` differ),
  which is what the precondition supplies. The read-out `Σ_h act_ph · W_oh + b_o` is the same expression on
  both sides, so nothing is asked of `W` and `b`.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The inputs: 2048 rows of 128 features. -/
abbrev SX : Shape := ⟨2, ![2048, 128]⟩
/-- The centers: 512 rows of 128 features. -/
abbrev SC : Shape := ⟨2, ![512, 128]⟩
/-- The bandwidth `σ`: one entry. -/
abbrev SS : Shape := ⟨1, ![1]⟩
/-- The read-out weights: 10 rows of 512. -/
abbrev SW : Shape := ⟨2, ![10, 512]⟩
/-- The read-out bias. -/
abbrev SB : Shape := ⟨1, ![10]⟩
/-- The result: 2048 rows of 10. -/
abbrev SO : Shape := ⟨2, ![2048, 10]⟩

/-! ## The three float patterns the programs spell -/

/-- The pattern of `2.0` denotes the real 2. -/
theorem two_eq : Ideal.ofBits .f32 0x40000000#32 = ((2 : ℝ) : EReal) := by
  simp [Ideal.ofBits, Ideal.ieee, -EReal.coe_mul]; norm_num

/-- The pattern of `1.0` denotes the real 1. -/
theorem one_eq : Ideal.ofBits .f32 0x3F800000#32 = ((1 : ℝ) : EReal) := by
  simp [Ideal.ofBits, Ideal.ieee, -EReal.coe_mul]; norm_num

/-- The pattern of `+0.0` denotes the real 0. -/
theorem zero_eq : Ideal.ofBits .f32 0x00000000#32 = ((0 : ℝ) : EReal) := by
  rw [Ideal.ofBits_zero_f32]; rfl

/-! ## Sums of reals inside the extended reals -/

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Expanding the square under a sum: `Σ (a - b)² = (Σ a² + Σ b²) - 2 Σ a·b`, over the reals. -/
theorem sum_sq_sub {n : Nat} (a b : Fin n → ℝ) :
    ∑ f, (a f - b f) * (a f - b f) = (∑ f, a f * a f + ∑ f, b f * b f) - 2 * ∑ f, a f * b f := by
  rw [Finset.mul_sum, ← Finset.sum_add_distrib, ← Finset.sum_sub_distrib]
  exact Finset.sum_congr rfl fun f _ => by ring

/-! ## The two activations -/

/-- The reference's activation at input row `p` and center `h`: the squared distance summed feature by
    feature from `0`, negated, divided by `2·(σ·σ)`, exponentiated. -/
def actRef (x : SX.Idx → EReal) (c : SC.Idx → EReal) (σ : SS.Idx → EReal) (p : Fin 2048) (h : Fin 512) : EReal :=
  Ideal.exp (Ideal.div
    (-(Ideal.ofBits .f32 0x00000000#32 + ∑ f : Fin 128, (x (ix2 p f) - c (ix2 h f)) * (x (ix2 p f) - c (ix2 h f))))
    (Ideal.ofBits .f32 0x40000000#32 * (σ (ix1 0) * σ (ix1 0))))

/-- The kernel's activation there: the squared norms and the cross term taken apart, the distance assembled
    as `(|x|² + |c|²) - 2·x·c`, subtracted from `0`, and multiplied by the reciprocal `1 / ((2·σ)·σ)`. -/
def actKer (x : SX.Idx → EReal) (c : SC.Idx → EReal) (σ : SS.Idx → EReal) (p : Fin 2048) (h : Fin 512) : EReal :=
  Ideal.exp ((Ideal.ofBits .f32 0x00000000#32
      - ((∑ f : Fin 128, x (ix2 p f) * x (ix2 p f) + ∑ f : Fin 128, c (ix2 h f) * c (ix2 h f))
          - Ideal.ofBits .f32 0x40000000#32 * ∑ f : Fin 128, x (ix2 p f) * c (ix2 h f)))
    * Ideal.div (Ideal.ofBits .f32 0x3F800000#32) (Ideal.ofBits .f32 0x40000000#32 * σ (ix1 0) * σ (ix1 0)))

/-- The linear read-out both programs end with: entry `(p, o)` is `Σ_h act p h · W o h + b o`. -/
def readout (act : Fin 2048 → Fin 512 → EReal) (W : SW.Idx → EReal) (b : SB.Idx → EReal) : SO.Idx → EReal :=
  fun j => (∑ h : Fin 512, act (j 0) h * W (ix2 (j 1) h)) + b (ix1 (j 1))

/-- On finite inputs and centers and a finite nonzero bandwidth the two activations are one number. -/
theorem actKer_eq_actRef (x : SX.Idx → EReal) (c : SC.Idx → EReal) (σ : SS.Idx → EReal)
    (hx : ∀ i, ∃ r : ℝ, x i = r) (hc : ∀ i, ∃ r : ℝ, c i = r) (hσ : ∃ s : ℝ, s ≠ 0 ∧ σ (ix1 0) = s)
    (p : Fin 2048) (h : Fin 512) : actKer x c σ p h = actRef x c σ p h := by
  obtain ⟨s, hs, hσs⟩ := hσ
  choose xr hxr using hx
  choose cr hcr using hc
  have hD : (∑ f : Fin 128, (x (ix2 p f) - c (ix2 h f)) * (x (ix2 p f) - c (ix2 h f)))
      = ((∑ f : Fin 128, (xr (ix2 p f) - cr (ix2 h f)) * (xr (ix2 p f) - cr (ix2 h f)) : ℝ) : EReal) := by
    rw [coe_sum]; exact Finset.sum_congr rfl fun f _ => by rw [hxr, hcr, EReal.coe_mul, EReal.coe_sub]
  have hX : (∑ f : Fin 128, x (ix2 p f) * x (ix2 p f)) = ((∑ f : Fin 128, xr (ix2 p f) * xr (ix2 p f) : ℝ) : EReal) := by
    rw [coe_sum]; exact Finset.sum_congr rfl fun f _ => by rw [hxr, EReal.coe_mul]
  have hC : (∑ f : Fin 128, c (ix2 h f) * c (ix2 h f)) = ((∑ f : Fin 128, cr (ix2 h f) * cr (ix2 h f) : ℝ) : EReal) := by
    rw [coe_sum]; exact Finset.sum_congr rfl fun f _ => by rw [hcr, EReal.coe_mul]
  have hXC : (∑ f : Fin 128, x (ix2 p f) * c (ix2 h f)) = ((∑ f : Fin 128, xr (ix2 p f) * cr (ix2 h f) : ℝ) : EReal) := by
    rw [coe_sum]; exact Finset.sum_congr rfl fun f _ => by rw [hxr, hcr, EReal.coe_mul]
  have hden : (2 * (s * s) : ℝ) ≠ 0 := mul_ne_zero two_ne_zero (mul_ne_zero hs hs)
  have hden' : (2 * s * s : ℝ) ≠ 0 := mul_ne_zero (mul_ne_zero two_ne_zero hs) hs
  unfold actKer actRef
  rw [hD, hX, hC, hXC, hσs, two_eq, one_eq, zero_eq]
  rw [← EReal.coe_mul s s, ← EReal.coe_mul 2 (s * s), ← EReal.coe_mul 2 s, ← EReal.coe_mul (2 * s) s,
    Ideal.div_coe hden, Ideal.div_coe hden']
  simp only [← EReal.coe_mul, ← EReal.coe_add, ← EReal.coe_sub, ← EReal.coe_neg]
  rw [sum_sq_sub]
  show ((Real.exp _ : ℝ) : EReal) = ((Real.exp _ : ℝ) : EReal)
  congr 2
  field_simp
  ring

end Cert.Rbf

end
-- ==== Proof.RefValue.lean ====
/-
  The reference's result, read entry by entry.

  The reference replicates the inputs over the centers and the centers over the inputs into one
  [2048, 512, 128] array, subtracts, squares and sums the last axis from `0`: entry `(p, h)` of the distance
  array is `0 + Σ_f (x_pf - c_hf)²`. It negates, divides by the scalar `2·(σ·σ)` replicated everywhere,
  exponentiates, and contracts the 512 activations of row `p` against row `o` of `W` (read through a
  transpose), then adds `b_o` replicated down the rows. So the result is the read-out of the reference's
  activation `Cert.Rbf.actRef`.
-/
import proofs.«129261_j45002667327625_1_alg».proof.Proof.Gen.ReferenceIdeal.Read
import proofs.«129261_j45002667327625_1_alg».proof.Proof.RbfLaw

noncomputable section

open scoped BigOperators

namespace Cert.Rbf.Ref

open Idealize.ShloMosaic Idealize.ShloMosaic.ValueIdx Cert.ReferenceIdeal Cert.ReferenceIdeal.Gen Cert.ReferenceIdeal.Read

/-- The bandwidth reshaped to a scalar is its one entry. -/
theorem sigma_scalar (σ : S1.Idx → EReal) (i : S_.Idx) : val_main_v8 (F := Ideal) σ i = σ (ix1 0) := by
  unfold val_main_v8
  exact shapeCast_apply σ shapeCasts_S1_S_ i (ix1 0) rfl

/-- One summand of the distance: feature `k` of input row `p` against center `h`. -/
theorem sq_term (x : S2048x128.Idx → EReal) (c : S512x128.Idx → EReal) (p : Fin 2048) (h : Fin 512) (k : Fin 128) :
    val_main_v5 (F := Ideal) x c (idx_main_v6 (ix2 p h) k)
      = (x (ix2 p k) - c (ix2 h k)) * (x (ix2 p k) - c (ix2 h k)) := by
  rw [val_main_v5_apply, val_main_v4_apply, val_main_v2_apply, val_main_v0_apply, val_main_v3_apply, val_main_v1_apply]
  have e0 : idx_main_v0 (idx_main_v2 (idx_main_v6 (ix2 p h) k)) = ix2 p k :=
    funext fun a => Fin.ext (by match a with | ⟨0, _⟩ => rfl | ⟨1, _⟩ => rfl)
  have e1 : idx_main_v1 (idx_main_v3 (idx_main_v6 (ix2 p h) k)) = ix2 h k :=
    funext fun a => Fin.ext (by match a with | ⟨0, _⟩ => rfl | ⟨1, _⟩ => rfl)
  rw [e0, e1]
  rfl

/-- Entry `(p, h)` of the reference's activation array is `actRef`. -/
theorem act_eq (x : S2048x128.Idx → EReal) (c : S512x128.Idx → EReal) (σ : S1.Idx → EReal) (p : Fin 2048) (h : Fin 512) :
    val_main_v13 (F := Ideal) x c σ (ix2 p h) = actRef x c σ p h := by
  rw [val_main_v13_apply, val_main_v12_apply, val_main_v7_apply, val_main_v6_apply, val_main_v11_apply,
    val_main_v10_apply, val_main_v9_apply, sigma_scalar, val_main_cst_0_apply, val_main_cst_apply]
  rw [Finset.sum_congr rfl fun k _ => sq_term x c p h k]
  rfl

/-- The reference's result is the read-out of its activation. -/
theorem result_eq (x : S2048x128.Idx → EReal) (c : S512x128.Idx → EReal) (σ : S1.Idx → EReal)
    (W : S10x512.Idx → EReal) (b : S10.Idx → EReal) :
    val_main_v18 (F := Ideal) x c σ W b = readout (actRef x c σ) W b := by
  funext j
  obtain ⟨p, o, rfl⟩ : ∃ (p : Fin 2048) (o : Fin 10), j = ix2 p o := ⟨j 0, j 1, eq_ix2 j⟩
  rw [val_main_v18_apply, val_main_v15_apply, val_main_v17_apply, val_main_v16_apply]
  show (∑ k : Fin 512, _) + _ = (∑ h : Fin 512, actRef x c σ p h * W (ix2 o h)) + b (ix1 o)
  have eb : idx_main_v16 (idx_main_v17 (ix2 p o)) = ix1 o :=
    funext fun a => Fin.ext (by match a with | ⟨0, _⟩ => rfl)
  rw [eb]
  refine congrArg (· + b (ix1 o)) (Finset.sum_congr rfl fun k _ => ?_)
  have el : lidx_main_v15 (ix2 p o) k = ix2 p k :=
    funext fun a => Fin.ext (by match a with | ⟨0, _⟩ => rfl | ⟨1, _⟩ => rfl)
  have er : idx_main_v14 (ridx_main_v15 (ix2 p o) k) = ix2 o k :=
    funext fun a => Fin.ext (by match a with | ⟨0, _⟩ => rfl | ⟨1, _⟩ => rfl)
  rw [el, act_eq, val_main_v14_apply, er]

end Cert.Rbf.Ref

end
-- ==== Proof.KerPoint.lean ====
/-
  The kernel's body at one grid point, read entry by entry.

  The body holds a [512, 128] block `P0` of input rows, the whole centers `P1` and their transpose `P2`, the
  transposed read-out weights `P3` and the bandwidth `P4` as a [1, 1] array. Entry `(q, h)` of its distance
  array is `(Σ_f P0_qf² + Σ_f P1_hf²) - 2·Σ_f P0_qf·P2_fh`: the first sum is a row reduction kept as a
  column and replicated along the row, the second the same reduction laid as a row and replicated down the
  columns, the third a matrix product into a zero accumulator. The activation is the exponential of
  `(0 - distance)` times the one reciprocal `1 / ((2·σ)·σ)` replicated everywhere, and the payload contracts the
  512 activations of row `q` against column `o` of `P3`. Narrowing to bf16 before either product is the
  identity on extended reals.
-/
import proofs.«129261_j45002667327625_1_alg».proof.Proof.Gen.KernelIdeal.Value
import proofs.«129261_j45002667327625_1_alg».proof.Proof.RbfLaw
import Idealize.ShloMosaic.Lib.ValueLayout

noncomputable section
open scoped BigOperators
namespace Cert.Rbf.Ker
open Idealize.ShloMosaic Idealize.ShloMosaic.ValueIdx Cert.KernelIdeal Cert.KernelIdeal.Gen

/-- A row sum of squares, kept as a column and replicated along the row: entry `(q, h)` is row `q`'s sum. -/
theorem rowsq_col (P : S512x128.Idx → EReal) (q h : Fin 512) :
    broadcastTo S512x512 (shapeCast S512x1 (multiReduction (F := Ideal) .add [1] S512 (mulf (F := Ideal) (φ := .f32) P P) 0x00000000#32 reduces_S512x128_S512 (.inl rfl) rfl) shapeCasts_S512_S512x1) broadcasts_S512x1_S512x512 (ix2 q h)
      = ∑ f : Fin 128, P (ix2 q f) * P (ix2 q f) := by
  refine (broadcastTo_apply _ broadcasts_S512x1_S512x512 (ix2 q h) (ix2 q (0 : Fin 1)) (fun a => match a with
    | ⟨0, _⟩ => by show q.val = if (512 : Nat) = 1 then 0 else q.val; rw [if_neg (by decide)]
    | ⟨1, _⟩ => by show 0 = if (1 : Nat) = 1 then 0 else h.val; rw [if_pos rfl])).trans ?_
  refine (shapeCast_apply _ shapeCasts_S512_S512x1 (ix2 q (0 : Fin 1)) (ix1 q) (by
    rw [Shape.rowMajor_val_two, Shape.rowMajor_val_one]; show q.val = q.val * 1 + 0; omega)).trans ?_
  refine (Ideal.multiReduction_add_single _ _ reduces_S512x128_S512 _ _ (ix1 q)).trans ?_
  refine Finset.sum_congr rfl fun f _ => ?_
  have e : reduces_S512x128_S512.lift (ix1 q) f = ix2 q f :=
    funext fun a => Fin.ext (by match a with | ⟨0, _⟩ => rfl | ⟨1, _⟩ => rfl)
  rw [e]; rfl

/-- The same row sums laid as a row and replicated down the columns: entry `(q, h)` is row `h`'s sum. -/
theorem rowsq_row (P : S512x128.Idx → EReal) (q h : Fin 512) :
    broadcastTo S512x512 (shapeCast S1x512 (multiReduction (F := Ideal) .add [1] S512 (mulf (F := Ideal) (φ := .f32) P P) 0x00000000#32 reduces_S512x128_S512 (.inl rfl) rfl) shapeCasts_S512_S1x512) broadcasts_S1x512_S512x512 (ix2 q h)
      = ∑ f : Fin 128, P (ix2 h f) * P (ix2 h f) := by
  refine (broadcastTo_1b_ab_apply _ broadcasts_S1x512_S512x512 q h).trans ?_
  refine (shapeCast_a_1a_apply _ shapeCasts_S512_S1x512 (0 : Fin 1) h).trans ?_
  refine (Ideal.multiReduction_add_single _ _ reduces_S512x128_S512 _ _ (ix1 h)).trans ?_
  refine Finset.sum_congr rfl fun f _ => ?_
  have e : reduces_S512x128_S512.lift (ix1 h) f = ix2 h f :=
    funext fun a => Fin.ext (by match a with | ⟨0, _⟩ => rfl | ⟨1, _⟩ => rfl)
  rw [e]; rfl

/-! ## The cross term: a [512,128] × [128,512] product, its operand indices by coordinates -/

theorem lhs_cross_0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
theorem lhs_cross_1 (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q
theorem rhs_cross_0 (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q
theorem rhs_cross_1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- Entry `(q, h)` of the cross term is `Σ_f P0_qf · P2_fh`. -/
theorem cross_apply (P0 : S512x128.Idx → EReal) (P2 : S128x512.Idx → EReal) (q h : Fin 512) :
    matmul (F := Ideal) dot_S512x128_S128x512_S512x512_1_0_0_1_n_n none (truncf (F := Ideal) (φ := .f32) .bf16 P0 bitsLt_bf16_f32)
      (truncf (F := Ideal) (φ := .f32) .bf16 (shapeCast S128x512 P2 shapeCasts_S128x512_S128x512) bitsLt_bf16_f32) (constant S512x512 .f32 0x00000000#32) (ix2 q h)
      = ∑ f : Fin 128, P0 (ix2 q f) * P2 (ix2 f h) := by
  rw [shapeCast_self]
  refine (Ideal.matmul_constant_zero_apply dot_S512x128_S128x512_S512x512_1_0_0_1_n_n none _ _ (ix2 q h)).trans ?_
  rw [← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 q h) ((contrEquiv1 dot_S512x128_S128x512_S512x512_1_0_0_1_n_n 128 rfl rfl).symm k) = ix2 q k := funext fun a => Fin.ext (by
    match a with
    | ⟨0, _⟩ => exact lhs_cross_0 _ _
    | ⟨1, _⟩ => exact (lhs_cross_1 _ _).trans hk)
  have er : dot_S512x128_S128x512_S512x512_1_0_0_1_n_n.rhsIdx (ix2 q h) ((contrEquiv1 dot_S512x128_S128x512_S512x512_1_0_0_1_n_n 128 rfl rfl).symm k) = ix2 k h := funext fun a => Fin.ext (by
    match a with
    | ⟨0, _⟩ => exact (rhs_cross_0 _ _).trans hk
    | ⟨1, _⟩ => exact rhs_cross_1 _ _)
  rw [el, er]
  rfl

/-- The reciprocal `1 / ((2·σ)·σ)`, computed once on the [1, 1] array and replicated, at any entry. -/
theorem scale_apply (P4 : S1x1.Idx → EReal) (q h : Fin 512) :
    broadcastTo S512x512 (divf (F := Ideal) (φ := .f32) (broadcast S1x1 (FloatOps.ofBits (F := Ideal) .f32 0x3F800000#32))
        (mulf (mulf (broadcast S1x1 (FloatOps.ofBits (F := Ideal) .f32 0x40000000#32)) (shapeCast S1x1 P4 shapeCasts_S1x1_S1x1)) (shapeCast S1x1 P4 shapeCasts_S1x1_S1x1)))
      broadcasts_S1x1_S512x512 (ix2 q h)
      = Ideal.div (Ideal.ofBits .f32 0x3F800000#32) (Ideal.ofBits .f32 0x40000000#32 * P4 (ix2 (0 : Fin 1) (0 : Fin 1)) * P4 (ix2 (0 : Fin 1) (0 : Fin 1))) := by
  rw [shapeCast_self]
  refine (broadcastTo_apply _ broadcasts_S1x1_S512x512 (ix2 q h) (ix2 (0 : Fin 1) (0 : Fin 1)) (fun a => match a with
    | ⟨0, _⟩ => by show 0 = if (1 : Nat) = 1 then 0 else q.val; rw [if_pos rfl]
    | ⟨1, _⟩ => by show 0 = if (1 : Nat) = 1 then 0 else h.val; rw [if_pos rfl])).trans ?_
  rfl

/-- The activation as the body computes it from the point's blocks. -/
def actBlk (P0 P1 : S512x128.Idx → EReal) (P2 : S128x512.Idx → EReal) (P4 : S1x1.Idx → EReal) (q h : Fin 512) : EReal :=
  Ideal.exp ((Ideal.ofBits .f32 0x00000000#32
      - ((∑ f : Fin 128, P0 (ix2 q f) * P0 (ix2 q f) + ∑ f : Fin 128, P1 (ix2 h f) * P1 (ix2 h f))
          - Ideal.ofBits .f32 0x40000000#32 * ∑ f : Fin 128, P0 (ix2 q f) * P2 (ix2 f h)))
    * Ideal.div (Ideal.ofBits .f32 0x3F800000#32) (Ideal.ofBits .f32 0x40000000#32 * P4 (ix2 (0 : Fin 1) (0 : Fin 1)) * P4 (ix2 (0 : Fin 1) (0 : Fin 1))))

/-! ## The read-out: a [512,512] × [512,10] product -/

theorem lhs_out_0 (i : S512x10.Idx) (q : dot_S512x512_S512x10_S512x10_1_0_0_1_n_n.contr.Idx) :
    (dot_S512x512_S512x10_S512x10_1_0_0_1_n_n.lhsIdx i q 0).val = (i 0).val := by
  unfold DotDims.lhsIdx
  rw [dif_neg (show ¬(0 : Fin S512x512.rank) ∈ dot_S512x512_S512x10_S512x10_1_0_0_1_n_n.lhsBatch by decide), dif_pos (show (0 : Fin S512x512.rank) ∈ dot_S512x512_S512x10_S512x10_1_0_0_1_n_n.lhsNonContracting by decide)]
  rfl
theorem lhs_out_1 (i : S512x10.Idx) (q : dot_S512x512_S512x10_S512x10_1_0_0_1_n_n.contr.Idx) :
    (dot_S512x512_S512x10_S512x10_1_0_0_1_n_n.lhsIdx i q 1).val = (q ⟨0, by decide⟩).val :=
  dot_S512x512_S512x10_S512x10_1_0_0_1_n_n.lhsIdx_val_of_single rfl i q
theorem rhs_out_0 (i : S512x10.Idx) (q : dot_S512x512_S512x10_S512x10_1_0_0_1_n_n.contr.Idx) :
    (dot_S512x512_S512x10_S512x10_1_0_0_1_n_n.rhsIdx i q 0).val = (q ⟨0, by decide⟩).val :=
  dot_S512x512_S512x10_S512x10_1_0_0_1_n_n.rhsIdx_val_of_single rfl i q
theorem rhs_out_1 (i : S512x10.Idx) (q : dot_S512x512_S512x10_S512x10_1_0_0_1_n_n.contr.Idx) :
    (dot_S512x512_S512x10_S512x10_1_0_0_1_n_n.rhsIdx i q 1).val = (i 1).val := by
  unfold DotDims.rhsIdx
  rw [dif_neg (show ¬(1 : Fin S512x10.rank) ∈ dot_S512x512_S512x10_S512x10_1_0_0_1_n_n.rhsBatch by decide), dif_pos (show (1 : Fin S512x10.rank) ∈ dot_S512x512_S512x10_S512x10_1_0_0_1_n_n.rhsNonContracting by decide)]
  rfl

/-- Entry `(q, o)` of the body's product is `Σ_h act_qh · P3_ho`. -/
theorem pay_apply (P0 P1 : S512x128.Idx → EReal) (P2 : S128x512.Idx → EReal) (P3 : S512x10.Idx → EReal) (P4 : S1x1.Idx → EReal)
    (q : Fin 512) (o : Fin 10) :
    k0_pay2 (F := Ideal) P0 P1 P2 P3 P4 (ix2 q o) = ∑ h : Fin 512, actBlk P0 P1 P2 P4 q h * P3 (ix2 h o) := by
  unfold k0_pay2
  refine (Ideal.matmul_constant_zero_apply dot_S512x512_S512x10_S512x10_1_0_0_1_n_n none _ _ (ix2 q o)).trans ?_
  rw [← Equiv.sum_comp (contrEquiv1 dot_S512x512_S512x10_S512x10_1_0_0_1_n_n 512 rfl rfl).symm]
  refine Finset.sum_congr rfl fun h _ => ?_
  have hk := contrEquiv1_symm_val dot_S512x512_S512x10_S512x10_1_0_0_1_n_n 512 rfl rfl h
  have el : dot_S512x512_S512x10_S512x10_1_0_0_1_n_n.lhsIdx (ix2 q o) ((contrEquiv1 dot_S512x512_S512x10_S512x10_1_0_0_1_n_n 512 rfl rfl).symm h) = ix2 q h := funext fun a => Fin.ext (by
    match a with
    | ⟨0, _⟩ => exact lhs_out_0 _ _
    | ⟨1, _⟩ => exact (lhs_out_1 _ _).trans hk)
  have er : dot_S512x512_S512x10_S512x10_1_0_0_1_n_n.rhsIdx (ix2 q o) ((contrEquiv1 dot_S512x512_S512x10_S512x10_1_0_0_1_n_n 512 rfl rfl).symm h) = ix2 h o := funext fun a => Fin.ext (by
    match a with
    | ⟨0, _⟩ => exact (rhs_out_0 _ _).trans hk
    | ⟨1, _⟩ => exact rhs_out_1 _ _)
  rw [el, er, shapeCast_self P3]
  unfold actBlk
  rw [← rowsq_col P0 q h, ← rowsq_row P1 q h, ← cross_apply P0 P2 q h, ← scale_apply P4 q h]
  rfl

end Cert.Rbf.Ker
end
-- ==== Proof.KerArray.lean ====
/-
  From the grid's four points to the whole result array.

  Point `t` of the grid holds input rows `512·t … 512·t + 511`; every other operand is the same whole array at
  every point: the centers, their transpose (written before the launch), the transposed read-out weights, the
  bias as a [1, 10] array and the bandwidth as a [1, 1] array. So entry `(q, o)` of what point `t` writes
  back is the read-out of the kernel's activation `Cert.Rbf.actKer` at row `512·t + q` of the arguments, and
  the four blocks of 512 rows tile the 2048 rows of the result: row `r` lies in the block of point `r / 512`.
-/
import proofs.«129261_j45002667327625_1_alg».proof.Proof.KerPoint
import Idealize.ShloMosaic.Lib.StableHlo.Run

noncomputable section
open scoped BigOperators
namespace Cert.Rbf.Ker
open Idealize.ShloMosaic Idealize.ShloMosaic.ValueIdx Idealize.ShloMosaic.TcCoe Idealize.SL.Sem Cert.KernelIdeal Cert.KernelIdeal.Gen
open Idealize.ShloMosaic.Pipeline (Dat)

/-- The zero offsets of a whole-block access. -/
theorem hz : (![0, 0] : Fin 2 → Nat) = fun _ => 0 := funext fun a => by fin_cases a <;> rfl

/-- One entry of what the body leaves in the output block, for blocks that read the argument arrays as stated:
    block row `q` of the inputs is row `p` of `X`; the centers whole and transposed; the weights transposed; the
    bias and the bandwidth with a unit axis in front. It is the read-out of the kernel's activation at `(p, o)`. -/
theorem point_eq (X : SX.Idx → EReal) (C : SC.Idx → EReal) (Sg : SS.Idx → EReal) (W : SW.Idx → EReal) (B : SB.Idx → EReal)
    (x0 x1 : S512x128.Idx → EReal) (x2 : S128x512.Idx → EReal) (x3 : S512x10.Idx → EReal) (x4 : S1x10.Idx → EReal) (x5 : S1x1.Idx → EReal)
    (q : Fin 512) (o : Fin 10) (p : Fin 2048)
    (h0 : ∀ f : Fin 128, x0 (ix2 q f) = X (ix2 p f))
    (h1 : ∀ (h : Fin 512) (f : Fin 128), x1 (ix2 h f) = C (ix2 h f))
    (h2 : ∀ (f : Fin 128) (h : Fin 512), x2 (ix2 f h) = C (ix2 h f))
    (h3 : ∀ (h : Fin 512) (o : Fin 10), x3 (ix2 h o) = W (ix2 o h))
    (h4 : ∀ o : Fin 10, x4 (ix2 (0 : Fin 1) o) = B (ix1 o))
    (h5 : x5 (ix2 (0 : Fin 1) (0 : Fin 1)) = Sg (ix1 0)) :
    out0_6 (F := Ideal) x0 x1 x2 x3 x4 x5 (ix2 q o) = readout (actKer X C Sg) W B (ix2 p o) := by
  unfold out0_6
  rw [Cert.KernelIdeal.Value.canon6_eq]
  simp only [View.ld_unit_zero (S := S512x128) hz, View.ld_unit_zero (S := S128x512) hz, View.ld_unit_zero (S := S512x10) hz,
    View.ld_unit_zero (S := S1x10) hz, View.ld_unit_zero (S := S1x1) hz]
  have e0 : Cert.KernelIdeal.Value.ix6_0 (ix2 q o) = ix2 q o :=
    funext fun a => Fin.ext (by match a with | ⟨0, _⟩ => rfl | ⟨1, _⟩ => rfl)
  have e1 : Cert.KernelIdeal.Value.ix6_1 (ix2 q o) = ix2 (0 : Fin 1) o :=
    funext fun a => Fin.ext (by match a with | ⟨0, _⟩ => rfl | ⟨1, _⟩ => rfl)
  show (k0_pay2 (F := Ideal) x0 x1 x2 x3 x5 (Cert.KernelIdeal.Value.ix6_0 (ix2 q o))) + x4 (Cert.KernelIdeal.Value.ix6_1 (ix2 q o))
    = (∑ h : Fin 512, actKer X C Sg p h * W (ix2 o h)) + B (ix1 o)
  rw [e0, e1, pay_apply, h4]
  refine congrArg (· + B (ix1 o)) (Finset.sum_congr rfl fun h _ => ?_)
  rw [h3]
  refine congrArg (· * W (ix2 o h)) ?_
  unfold actBlk actKer
  simp only [h0, h1, h2, h5]

variable (m : (ℓ : Loc nD τ sig) → Buf (Elt Ideal) ℓ) (ρ : Dev nD → PrngReg)

/-- The inputs, as memory holds them at launch. -/
abbrev argX (c : Dev nD) : SX.Idx → EReal := m ((c : Thread nD τ).loc main_arg0)
/-- The centers. -/
abbrev argC (c : Dev nD) : SC.Idx → EReal := m ((c : Thread nD τ).loc main_arg1)
/-- The bandwidth. -/
abbrev argS (c : Dev nD) : SS.Idx → EReal := m ((c : Thread nD τ).loc main_arg2)
/-- The read-out weights. -/
abbrev argW (c : Dev nD) : SW.Idx → EReal := m ((c : Thread nD τ).loc main_arg3)
/-- The read-out bias. -/
abbrev argB (c : Dev nD) : SB.Idx → EReal := m ((c : Thread nD τ).loc main_arg4)

/-- Before the launch the centers are transposed … -/
theorem V_v0 (c : Dev nD) : (V m c main_v0 : S128x512.Idx → EReal) = transpose S128x512 [1, 0] (argC m c) transposes_S512x128_S128x512_1_0 := by
  dsimp only [Gen.V, Gen.hostOps0]; after_results <;> rfl

/-- … the read-out weights are transposed … -/
theorem V_v1 (c : Dev nD) : (V m c main_v1 : S512x10.Idx → EReal) = transpose S512x10 [1, 0] (argW m c) transposes_S10x512_S512x10_1_0 := by
  dsimp only [Gen.V, Gen.hostOps0]; after_results <;> rfl

/-- … the bias gets a unit axis in front … -/
theorem V_v2 (c : Dev nD) : (V m c main_v2 : S1x10.Idx → EReal) = shapeCast S1x10 (argB m c) shapeCasts_S10_S1x10 := by
  dsimp only [Gen.V, Gen.hostOps0]; after_results <;> rfl

/-- … and so does the bandwidth. -/
theorem V_v3 (c : Dev nD) : (V m c main_v3 : S1x1.Idx → EReal) = shapeCast S1x1 (argS m c) shapeCasts_S1_S1x1 := by
  dsimp only [Gen.V, Gen.hostOps0]; after_results <;> rfl

/-- The whole result array as the kernel computes it from the arguments. -/
abbrev result (c : Dev nD) : SO.Idx → EReal := readout (actKer (argX m c) (argC m c) (argS m c)) (argW m c) (argB m c)

/-- The block index maps over the grid: the inputs' block row moves with the output's, which is the point
    itself; every other window stays at block (0, 0). -/
theorem idx_facts : ∀ t : Fin cfg0.N, win0_0.index t (0 : Fin 2) = win0_6.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of `result`. -/
theorem flushed_eq (c : Dev nD) (t : Fin cfg0.N) :
    (dats m 0 c).flushed 6 t = ((cfg0.win 6).blk t).view.read (Elt Ideal) (result m c) := by
  rw [Cert.KernelIdeal.Value.flushed6]
  obtain ⟨e00, e01, e10, e11, e20, e21, e30, e31, e40, e41, e50, e51, e60, e61⟩ := idx_facts t
  funext j
  have hj0 : (j 0).val < 512 := (j 0).isLt
  have hj1 : (j 1).val < 10 := (j 1).isLt
  have ht : t.val < 4 := t.isLt
  have hp : t.val * 512 + (j 0).val < 2048 := by omega
  refine Eq.trans (?_ : _ = out0_6 (F := Ideal) (iblk m c 0 t) (iblk m c 1 t) (iblk m c 2 t) (iblk m c 3 t) (iblk m c 4 t) (iblk m c 5 t)
      (ix2 (⟨(j 0).val, hj0⟩ : Fin 512) (⟨(j 1).val, hj1⟩ : Fin 10))) ?_
  · exact congrArg (out0_6 (F := Ideal) (iblk m c 0 t) (iblk m c 1 t) (iblk m c 2 t) (iblk m c 3 t) (iblk m c 4 t) (iblk m c 5 t))
      (funext fun a => by match a with | ⟨0, _⟩ => rfl | ⟨1, _⟩ => rfl)
  refine (point_eq (argX m c) (argC m c) (argS m c) (argW m c) (argB m c)
    (iblk m c 0 t) (iblk m c 1 t) (iblk m c 2 t) (iblk m c 3 t) (iblk m c 4 t) (iblk m c 5 t)
    (⟨(j 0).val, hj0⟩ : Fin 512) (⟨(j 1).val, hj1⟩ : Fin 10) (⟨t.val * 512 + (j 0).val, hp⟩ : Fin 2048) ?_ ?_ ?_ ?_ ?_ ?_).trans ?_
  · intro f
    show V m c main_arg0 (((cfg0.win 0).blk t).view.emb (ix2 (⟨(j 0).val, hj0⟩ : Fin 512) f)) = _
    rw [V_main_arg0]
    refine congrArg (argX m c) (funext fun a => Fin.ext ?_)
    match a with
    | ⟨0, _⟩ => show win0_0.index t (0 : Fin 2) * 512 + 1 * (j 0).val = t.val * 512 + (j 0).val; omega
    | ⟨1, _⟩ => show win0_0.index t (1 : Fin 2) * 128 + 1 * f.val = f.val; omega
  · intro h f
    show V m c main_arg1 (((cfg0.win 1).blk t).view.emb (ix2 h f)) = _
    rw [V_main_arg1]
    refine congrArg (argC m c) (funext fun a => Fin.ext ?_)
    match a with
    | ⟨0, _⟩ => show win0_1.index t (0 : Fin 2) * 512 + 1 * h.val = h.val; omega
    | ⟨1, _⟩ => show win0_1.index t (1 : Fin 2) * 128 + 1 * f.val = f.val; omega
  · intro f h
    show V m c main_v0 (((cfg0.win 2).blk t).view.emb (ix2 f h)) = _
    have e : ((cfg0.win 2).blk t).view.emb (ix2 f h) = ix2 f h := funext fun a => Fin.ext (by
      match a with
      | ⟨0, _⟩ => show win0_2.index t (0 : Fin 2) * 128 + 1 * f.val = f.val; omega
      | ⟨1, _⟩ => show win0_2.index t (1 : Fin 2) * 512 + 1 * h.val = h.val; omega)
    rw [e, V_v0]
    exact transpose_ix2_apply (argC m c) transposes_S512x128_S128x512_1_0 f h
  · intro h o
    show V m c main_v1 (((cfg0.win 3).blk t).view.emb (ix2 h o)) = _
    have e : ((cfg0.win 3).blk t).view.emb (ix2 h o) = ix2 h o := funext fun a => Fin.ext (by
      match a with
      | ⟨0, _⟩ => show win0_3.index t (0 : Fin 2) * 512 + 1 * h.val = h.val; omega
      | ⟨1, _⟩ => show win0_3.index t (1 : Fin 2) * 10 + 1 * o.val = o.val; omega)
    rw [e, V_v1]
    exact transpose_ix2_apply (argW m c) transposes_S10x512_S512x10_1_0 h o
  · intro o
    show V m c main_v2 (((cfg0.win 4).blk t).view.emb (ix2 (0 : Fin 1) o)) = _
    have e : ((cfg0.win 4).blk t).view.emb (ix2 (0 : Fin 1) o) = ix2 (0 : Fin 1) o := funext fun a => Fin.ext (by
      match a with
      | ⟨0, _⟩ => show win0_4.index t (0 : Fin 2) * 1 + 1 * 0 = 0; omega
      | ⟨1, _⟩ => show win0_4.index t (1 : Fin 2) * 10 + 1 * o.val = o.val; omega)
    rw [e, V_v2]
    exact shapeCast_a_1a_apply (argB m c) shapeCasts_S10_S1x10 (0 : Fin 1) o
  · show V m c main_v3 (((cfg0.win 5).blk t).view.emb (ix2 (0 : Fin 1) (0 : Fin 1))) = _
    have e : ((cfg0.win 5).blk t).view.emb (ix2 (0 : Fin 1) (0 : Fin 1)) = ix2 (0 : Fin 1) (0 : Fin 1) := funext fun a => Fin.ext (by
      match a with
      | ⟨0, _⟩ => show win0_5.index t (0 : Fin 2) * 1 + 1 * 0 = 0; omega
      | ⟨1, _⟩ => show win0_5.index t (1 : Fin 2) * 1 + 1 * 0 = 0; omega)
    rw [e, V_v3]
    exact shapeCast_a_1a_apply (argS m c) shapeCasts_S1_S1x1 (0 : Fin 1) (0 : Fin 1)
  · show result m c _ = result m c (((cfg0.win 6).blk t).view.emb j)
    refine congrArg (result m c) (funext fun a => Fin.ext ?_)
    match a with
    | ⟨0, _⟩ => show t.val * 512 + (j 0).val = win0_6.index t (0 : Fin 2) * 512 + 1 * (j 0).val; omega
    | ⟨1, _⟩ => show (j 1).val = win0_6.index t (1 : Fin 2) * 10 + 1 * (j 1).val; omega

/-- An index of the result array is in point `t`'s block iff each coordinate is in the block's range on its axis. -/
theorem mem_blk (t : Fin cfg0.N) (i : S2048x10.Idx) :
    i ∈ ((cfg0.win 6).blk t).view.set ↔ ∀ a : Fin 2, win0_6.index t a * S512x10.size a ≤ (i a).val ∧ (i a).val < win0_6.index t a * S512x10.size a + S512x10.size a := by
  show i ∈ ((View.whole main_v4).slice (win0_6.rect t)).set ↔ _
  rw [View.set_slice_whole, Rect.mem_set_unit]
  exact Iff.rfl

/-- Row `r` of the result lies in the block of point `r / 512`. -/
theorem covered (i : S2048x10.Idx) : ∃ t : Fin cfg0.N, (cfg0.win 6).flush t = true ∧ i ∈ ((cfg0.win 6).blk t).view.set := by
  have hi0 : (i 0).val < 2048 := (i 0).isLt
  have hi1 : (i 1).val < 10 := (i 1).isLt
  have hN : cfg0.N = 4 := N_0
  refine ⟨⟨(i 0).val / 512, by rw [hN]; omega⟩, flush0_6 _, ?_⟩
  rw [mem_blk]
  obtain ⟨-, -, -, -, -, -, -, -, -, -, -, -, e60, e61⟩ := idx_facts ⟨(i 0).val / 512, by rw [hN]; omega⟩
  intro a
  match a with
  | ⟨0, _⟩ =>
    show win0_6.index _ (0 : Fin 2) * 512 ≤ (i 0).val ∧ (i 0).val < win0_6.index _ (0 : Fin 2) * 512 + 512
    rw [e60]; show (i 0).val / 512 * 512 ≤ (i 0).val ∧ (i 0).val < (i 0).val / 512 * 512 + 512; omega
  | ⟨1, _⟩ =>
    show win0_6.index _ (1 : Fin 2) * 10 ≤ (i 1).val ∧ (i 1).val < win0_6.index _ (1 : Fin 2) * 10 + 10
    rw [e61]; omega

/-- After the run the result array is the kernel's whole-array function of the arguments. -/
theorem final (c : Dev nD) : (dats m 0 c).arrAt 6 cfg0.N = result m c :=
  (dats m 0 c).arrAt_eq_of_cover 6 (result m c) (fun t _ => flushed_eq m c t) covered

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Rbf.Ker
end
-- ==== Proof.PreFacts.lean ====
/-
  What the precondition says of the arguments.

  The printed precondition is a conjunction of six `all`-reductions. Five say of one argument each that every
  entry's absolute value is below `+∞`: an extended real with that property is a real. The sixth says the
  bandwidth's one entry differs from `0`. The proof of the value claim uses the first three and the sixth: the
  inputs and the centers are arrays of reals, and `σ` is a nonzero real.
-/
import proofs.«129261_j45002667327625_1_alg».proof.Pre_finite_inputs
import proofs.«129261_j45002667327625_1_alg».proof.Proof.RbfLaw
import Idealize.ShloMosaic.Lib.ReduceAll
import Idealize.ShloMosaic.Lib.Pipeline.Value

noncomputable section
namespace Cert.Rbf.Pre
open Idealize.ShloMosaic Idealize.ShloMosaic.ValueIdx Cert.Pre_finite_inputs

variable [Facts]
open Facts

/-- The scalar shape has one index. -/
instance : Subsingleton S_.Idx := ⟨fun a b => funext fun d => d.elim0⟩

/-- An extended real whose absolute value is below `+∞` is a real. -/
theorem real_of_abs_lt (x : EReal) (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- The precondition, read: the inputs and the centers are real entry by entry, and the bandwidth is a nonzero real. -/
theorem decode (x : S2048x128.Idx → EReal) (c : S512x128.Idx → EReal) (σ : S1.Idx → EReal) (W : S10x512.Idx → EReal) (b : S10.Idx → EReal)
    (h : fn (F := Ideal) x c σ W b = fun _ => 1#1) :
    (∀ i, ∃ r : ℝ, x i = r) ∧ (∀ i, ∃ r : ℝ, c i = r) ∧ (∃ s : ℝ, s ≠ 0 ∧ σ (ix1 0) = s) := by
  have h0 := congrFun h ix0
  dsimp only [fn, fn_part1] at h0
  change IntOp.andi _ _ = 1#1 at h0
  obtain ⟨h1, hne⟩ := IntOp.andi_eq_one.1 h0
  change IntOp.andi _ _ = 1#1 at h1
  obtain ⟨h2, -⟩ := IntOp.andi_eq_one.1 h1
  change IntOp.andi _ _ = 1#1 at h2
  obtain ⟨h3, -⟩ := IntOp.andi_eq_one.1 h2
  change IntOp.andi _ _ = 1#1 at h3
  obtain ⟨h4, hσ⟩ := IntOp.andi_eq_one.1 h3
  change IntOp.andi _ _ = 1#1 at h4
  obtain ⟨hx, hc⟩ := IntOp.andi_eq_one.1 h4
  refine ⟨fun i => real_of_abs_lt (x i) (Host.reduce_andi_all _ _ _ _ ix0 hx i),
    fun i => real_of_abs_lt (c i) (Host.reduce_andi_all _ _ _ _ ix0 hc i), ?_⟩
  obtain ⟨s, hs⟩ := real_of_abs_lt (σ (ix1 0)) (Host.reduce_andi_all _ _ _ _ ix0 hσ (ix1 0))
  refine ⟨s, ?_, hs⟩
  have hn : Ideal.cmp .une (σ (ix1 0)) (Ideal.ofBits .f32 0x00000000#32) = 1#1 := Host.reduce_andi_all _ _ _ _ ix0 hne (ix1 0)
  rw [hs, zero_eq] at hn
  intro h0
  rw [h0] at hn
  simp [Ideal.cmp] at hn

end Cert.Rbf.Pre
end
-- ==== Proof.lean ====
/- The radial-basis network: `out[p, o] = Σ_h exp(-|x_p - c_h|² / (2σ²)) · W[o, h] + b[o]` over 2048 inputs of
   128 features, 512 centers and 10 outputs.

   The reference forms every difference `x_p - c_h`, squares and sums it, divides the negated distance by
   `2·σ²`, exponentiates and applies the linear read-out. The kernel, on blocks of 512 input rows, takes the
   distance apart as `(|x_p|² + |c_h|²) - 2·x_p·c_h` with the cross term as a matrix product, multiplies
   `0 - distance` by the reciprocal `1 / ((2·σ)·σ)`, exponentiates and applies the same read-out as a second
   matrix product.

   Over the extended reals the two agree where the inputs and the centers are finite (expanding the square
   needs distributivity, which fails at the infinities) and the bandwidth is a finite NONZERO number: at
   `σ = 0` the reference divides by zero, and a quotient `0 / 0` and a product `0 · (1 / 0)` differ, so the
   precondition carries `σ ≠ 0` beside finiteness. Nothing is asked of `W` and `b`: the read-out is one
   expression on both sides.

   The modules: `RbfLaw` (the mathematics: the two activations are one number), `RefValue` (the reference's
   result entry by entry), `KerPoint` (the kernel's body at one grid point entry by entry), `KerArray` (the four
   blocks tile the result array), `PreFacts` (what the precondition says of the arguments). -/
import proofs.«129261_j45002667327625_1_alg».proof.Defs
import proofs.«129261_j45002667327625_1_alg».proof.Proof.Gen.Kernel
import proofs.«129261_j45002667327625_1_alg».proof.Proof.Gen.Kernel.Skeleton
import proofs.«129261_j45002667327625_1_alg».proof.Proof.Gen.Kernel.Launch
import proofs.«129261_j45002667327625_1_alg».proof.Proof.Gen.Kernel.Points
import proofs.«129261_j45002667327625_1_alg».proof.Proof.Gen.Kernel.Frame
import proofs.«129261_j45002667327625_1_alg».proof.Proof.Gen.KernelIdeal
import proofs.«129261_j45002667327625_1_alg».proof.Proof.Gen.KernelIdeal.Skeleton
import proofs.«129261_j45002667327625_1_alg».proof.Proof.Gen.KernelIdeal.Launch
import proofs.«129261_j45002667327625_1_alg».proof.Proof.Gen.KernelIdeal.Points
import proofs.«129261_j45002667327625_1_alg».proof.Proof.Gen.KernelIdeal.Frame
import proofs.«129261_j45002667327625_1_alg».proof.Proof.Gen.ReferenceIdeal
import proofs.«129261_j45002667327625_1_alg».proof.Proof.Gen.Pre_finite_inputs
import proofs.«129261_j45002667327625_1_alg».proof.Proof.Gen.KernelIdeal.Value
import proofs.«129261_j45002667327625_1_alg».proof.Proof.Gen.ReferenceIdeal.Run
import proofs.«129261_j45002667327625_1_alg».proof.Proof.Gen.ReferenceIdeal.Read
import proofs.«129261_j45002667327625_1_alg».proof.Proof.RbfLaw
import proofs.«129261_j45002667327625_1_alg».proof.Proof.RefValue
import proofs.«129261_j45002667327625_1_alg».proof.Proof.KerArray
import proofs.«129261_j45002667327625_1_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the read-out of an activation array; under the precondition the kernel's activation
    and the reference's are one number at every `(p, h)`. -/
theorem algebraic : Cert.algebraic_KernelIdeal_ReferenceIdeal := by
  intro m ρ m' ρ' hpre hagree
  refine ⟨fun c => Cert.Rbf.Ker.result m c, Cert.Rbf.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4]
  refine (Cert.ReferenceIdeal.Read.val_main_v18_eq _ _ _ _ _).trans ((Cert.Rbf.Ref.result_eq _ _ _ _ _).trans ?_)
  obtain ⟨hx, hc, hσ⟩ := Cert.Rbf.Pre.decode _ _ _ _ _ (hpre c)
  show Cert.Rbf.readout (Cert.Rbf.actRef _ _ _) _ _ = Cert.Rbf.readout (Cert.Rbf.actKer _ _ _) _ _
  refine congrArg (fun act => Cert.Rbf.readout act _ _) (funext fun p => funext fun h => ?_)
  exact (Cert.Rbf.actKer_eq_actRef _ _ _ hx hc hσ p h).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
